-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1000x2048 : Shape := ⟨2, ![1000, 2048]⟩
abbrev S1000 : Shape := ⟨1, ![1000]⟩
abbrev S256x1000 : Shape := ⟨2, ![256, 1000]⟩
abbrev S256x1 : Shape := ⟨2, ![256, 1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_
  bcast_S_S256x1000 : S_.BroadcastsInDim S256x1000 (![] : Fin 0 → Fin S256x1000.rank)
  reducesTo_S256x1000_S_d0_1 : S256x1000.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x1000 .f32) (main_arg5 : FVec F S256x1 .f32) (main_v13 : IVec S_ 1) (main_v16 : IVec S256x1000 1) : IVec S_ 1 :=
  let main_c_5 : IVec S_ 1 := constantI S_ 1 1#1
  let main_v17 : IVec S_ 1 := (fun x v => Host.reduce IntOp.andi x v reducesTo_S256x1000_S_d0_1 h_S_) main_v16 main_c_5
  let main_v18 : IVec S_ 1 := andi main_v13 main_v17
  let main_v19 : FVec F S256x1000 .f32 := Host.absf main_arg4
  let main_cst_6 : FVec F S_ .f32 := constant S_ .f32 0x7F800000#32
  let main_v20 : FVec F S256x1000 .f32 := broadcastInDim S256x1000 ![] bcast_S_S256x1000 main_cst_6
  let main_v21 : IVec S256x1000 1 := cmpf .olt main_v19 main_v20
  let main_c_7 : IVec S_ 1 := constantI S_ 1 1#1
  let main_v22 : IVec S_ 1 := (fun x v => Host.reduce IntOp.andi x v reducesTo_S256x1000_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  main_v28

def fn {F : FTy → Type} [FloatOps F] (main_arg0 : FVec F S8192x2048 .f32) (main_arg1 : FVec F S1000x2048 .f32) (main_arg2 : FVec F S1000 .f32) (main_arg3 : FVec F S256x1000 .f32) (main_arg4 : FVec F S256x1000 .f32) (main_arg5 : FVec F S256x1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S256x1000 .f32 := Host.absf main_arg3
  let main_cst_4 : FVec F S_ .f32 := constant S_ .f32 0x7F800000#32
  let main_v15 : FVec F S256x1000 .f32 := broadcastInDim S256x1000 ![] bcast_S_S256x1000 main_cst_4
  let main_v16 : IVec S256x1000 1 := cmpf .olt main_v14 main_v15
  fn_part1 (F := F) main_arg4 main_arg5 main_v13 main_v16
-- ==== Kernel.lean ====
abbrev S8192x2048 : Shape := ⟨2, ![8192, 2048]⟩
abbrev S1000x2048 : Shape := ⟨2, ![1000, 2048]⟩
abbrev S1000 : Shape := ⟨1, ![1000]⟩
abbrev S256x1000 : Shape := ⟨2, ![256, 1000]⟩
abbrev S256x1 : Shape := ⟨2, ![256, 1]⟩
abbrev S1x1000 : Shape := ⟨2, ![1, 1000]⟩
abbrev S8192x1000 : Shape := ⟨2, ![8192, 1000]⟩
abbrev S8192x1 : Shape := ⟨2, ![8192, 1]⟩
abbrev S512x2048 : Shape := ⟨2, ![512, 2048]⟩
abbrev S512x1000 : Shape := ⟨2, ![512, 1000]⟩
abbrev S512x1 : Shape := ⟨2, ![512, 1]⟩
abbrev S512 : Shape := ⟨1, ![512]⟩
abbrev S512x256 : Shape := ⟨2, ![512, 256]⟩
abbrev S8192 : Shape := ⟨1, ![8192]⟩
abbrev S_ : Shape := ⟨0, ![]⟩
abbrev S1 : Shape := ⟨1, ![1]⟩

abbrev nBuf : Space → Nat
  | .hbm => 32
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1000x2048, .f32⟩
  | .hbm, ⟨2, _⟩ => ⟨S1000, .f32⟩
  | .hbm, ⟨3, _⟩ => ⟨S256x1000, .f32⟩
  | .hbm, ⟨4, _⟩ => ⟨S256x1000, .f32⟩
  | .hbm, ⟨5, _⟩ => ⟨S256x1, .f32⟩
  | .hbm, ⟨6, _⟩ => ⟨S1000x2048, .bf16⟩
  | .hbm, ⟨7, _⟩ => ⟨S256x1000, .bf16⟩
  | .hbm, ⟨8, _⟩ => ⟨S256x1000, .bf16⟩
  | .hbm, ⟨9, _⟩ => ⟨S256x1, .bf16⟩
  | .hbm, ⟨10, _⟩ => ⟨S1x1000, .f32⟩
  | .hbm, ⟨11, _⟩ => ⟨S8192x1000, .f32⟩
  | .hbm, ⟨12, _⟩ => ⟨S8192x1, .f32⟩
  | .hbm, ⟨13, _⟩ => ⟨S8192x1, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1000x2048, .bf16⟩
  | .local _ .vmem, ⟨3, _⟩ => ⟨S1x1000, .f32⟩
  | .local _ .vmem, ⟨4, _⟩ => ⟨S256x1000, .bf16⟩
  | .local _ .vmem, ⟨5, _⟩ => ⟨S256x1000, .bf16⟩
  | .local _ .vmem, ⟨6, _⟩ => ⟨S256x1, .bf16⟩
  | .local _ .vmem, ⟨7, _⟩ => ⟨S512x1000, .f32⟩
  | .local _ .vmem, ⟨8, _⟩ => ⟨S512x1000, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S1000_S1x1000 : S1000.ShapeCasts S1x1000
  inb_S512x2048_S512x2048_0_0 : ∀ a, (![0, 0] : Fin 2 → Nat) a + S512x2048.size a ≤ S512x2048.size a
  h_S512x2048 : 0 < S512x2048.numel
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  dot_S512x2048_S1000x2048_S512x1000_1_1_0_0_n_n_wf : DotDims.WF S512x2048 S1000x2048 S512x1000 [1] [1] [0] [0] [] []
  dot_S512x1000_S256x1000_S512x256_1_1_0_0_n_n_wf : DotDims.WF S512x1000 S256x1000 S512x256 [1] [1] [0] [0] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x2048.size a
  hwx0_1 : ∀ i : grid0.Coords, EltTy.bits .bf16 = 32 ∨ (Rect.block (s := S1000x2048) S1000x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1000.size a ≤ S256x1000.size a
  hwx0_3 : ∀ i : grid0.Coords, EltTy.bits .bf16 = 32 ∨ (Rect.block (s := S256x1000) S256x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1000.size a ≤ S256x1000.size a
  hwx0_4 : ∀ i : grid0.Coords, EltTy.bits .bf16 = 32 ∨ (Rect.block (s := S256x1000) S256x1000.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .bf16 = 32 ∨ (Rect.block (s := S256x1) S256x1.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S8192x1000.size a
  hwx0_6 : ∀ i : grid0.Coords, EltTy.bits .f32 = 32 ∨ (Rect.block (s := S8192x1000) S512x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S8192x1.size a
  hwx0_8 : ∀ i : grid0.Coords, EltTy.bits .f32 = 32 ∨ (Rect.block (s := S8192x1) S512x1.size (cc0_transform_8 i) (hinb0_8 i)).WholeWords (EltTy.packing .f32)

variable [Facts₀]

def dot_S512x2048_S1000x2048_S512x1000_1_1_0_0_n_n : DotDims S512x2048 S1000x2048 S512x1000 where
  lhsContracting := [1]
  rhsContracting := [1]
  lhsNonContracting := [0]
  rhsNonContracting := [0]
  lhsBatch := []
  rhsBatch := []
  wf := dot_S512x2048_S1000x2048_S512x1000_1_1_0_0_n_n_wf
def dot_S512x1000_S256x1000_S512x256_1_1_0_0_n_n : DotDims S512x1000 S256x1000 S512x256 where
  lhsContracting := [1]
  rhsContracting := [1]
  lhsNonContracting := [0]
  rhsNonContracting := [0]
  lhsBatch := []
  rhsBatch := []
  wf := dot_S512x1000_S256x1000_S512x256_1_1_0_0_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S512x1000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S1000x2048 : Shape := ⟨2, ![1000, 2048]⟩
abbrev S1000 : Shape := ⟨1, ![1000]⟩
abbrev S256x1000 : Shape := ⟨2, ![256, 1000]⟩
abbrev S256x1 : Shape := ⟨2, ![256, 1]⟩
abbrev S8192x1000 : Shape := ⟨2, ![8192, 1000]⟩
abbrev S1x1000 : Shape := ⟨2, ![1, 1000]⟩
abbrev S8192x256 : Shape := ⟨2, ![8192, 256]⟩
abbrev S_ : Shape := ⟨0, ![]⟩
abbrev S8192x1 : Shape := ⟨2, ![8192, 1]⟩
abbrev S8192 : Shape := ⟨1, ![8192]⟩
abbrev S1 : Shape := ⟨1, ![1]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1000x2048, .f32⟩
  | .hbm, ⟨2, _⟩ => ⟨S1000, .f32⟩
  | .hbm, ⟨3, _⟩ => ⟨S256x1000, .f32⟩
  | .hbm, ⟨4, _⟩ => ⟨S256x1000, .f32⟩
  | .hbm, ⟨5, _⟩ => ⟨S256x1, .f32⟩
  | .hbm, ⟨6, _⟩ => ⟨S8192x1000, .f32⟩
  | .hbm, ⟨7, _⟩ => ⟨S1x1000, .f32⟩
  | .hbm, ⟨8, _⟩ => ⟨S8192x1000, .f32⟩
  | .hbm, ⟨9, _⟩ => ⟨S8192x1000, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x1, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x1000, .f32⟩
  | .hbm, ⟨39, _⟩ => ⟨S8192x1000, .f32⟩
  | .hbm, ⟨40, _⟩ => ⟨S_, .f32⟩
  | .hbm, ⟨41, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x256 : S_.BroadcastsInDim S8192x256 (![] : Fin 0 → Fin S8192x256.rank)
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  reducesTo_S8192x1000_S_d0_1 : S8192x1000.ReducesTo [0, 1] S_
  dot_S8192x2048_S1000x2048_S8192x1000_1_1_0_0_n_n_wf : DotDims.WF S8192x2048 S1000x2048 S8192x1000 [1] [1] [0] [0] [] []
  dot_S8192x1000_S256x1000_S8192x256_1_1_0_0_n_n_wf : DotDims.WF S8192x1000 S256x1000 S8192x256 [1] [1] [0] [0] [] []
  dot_S8192x256_S256x1_S8192x1_1_0_0_1_n_n_wf : DotDims.WF S8192x256 S256x1 S8192x1 [1] [0] [0] [1] [] []

variable [Facts₀]

def dot_S8192x2048_S1000x2048_S8192x1000_1_1_0_0_n_n : DotDims S8192x2048 S1000x2048 S8192x1000 where
  lhsContracting := [1]
  rhsContracting := [1]
  lhsNonContracting := [0]
  rhsNonContracting := [0]
  lhsBatch := []
  rhsBatch := []
  wf := dot_S8192x2048_S1000x2048_S8192x1000_1_1_0_0_n_n_wf
def dot_S8192x1000_S256x1000_S8192x256_1_1_0_0_n_n : DotDims S8192x1000 S256x1000 S8192x256 where
  lhsContracting := [1]
  rhsContracting := [1]
  lhsNonContracting := [0]
  rhsNonContracting := [0]
  lhsBatch := []
  rhsBatch := []
  wf := dot_S8192x1000_S256x1000_S8192x256_1_1_0_0_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibRowsByRows.lean ====
/-
  Rank-2 matrix products read at an element, at the extended reals, for any sizes: the product whose right operand
  is contracted on its LAST axis, `[M, K] × [N, K]`, at `(p, q)`: `∑ₖ a(p, k) · b(q, k)` — a kernel's product into a
  zero accumulator and the host's `dot_general` alike — and the host's plain product `[M, K] × [K, N]` at `(p, q)`:
  `∑ₖ a(p, k) · b(k, q)`.

  A dimension-numbers record that contracts axis 1 of both operands and has no batch axes IS the library's record
  for that product (`eq_transposedRhs`), so the lemmas serve every such record a program prints.
-/
import Idealize.ShloMosaic.PureOps.Ideal.Laws
import Idealize.ShloMosaic.Lib.ValueIdx
import Idealize.ShloMosaic.Lib.Pipeline.Value

noncomputable section

namespace Cert.Lib.RowsByRows

open Idealize.ShloMosaic Idealize.ShloMosaic.ValueIdx

variable {M K N : Nat}

/-- A record over `[M, K]`, `[N, K]`, `[M, N]` whose six lists are those of the product contracted on both last
    axes is the library's record for it. -/
theorem eq_transposedRhs (D : DotDims ⟨2, ![M, K]⟩ ⟨2, ![N, K]⟩ ⟨2, ![M, N]⟩) (h1 : D.lhsContracting = [1])
    (h2 : D.rhsContracting = [1]) (h3 : D.lhsNonContracting = [0]) (h4 : D.rhsNonContracting = [0])
    (h5 : D.lhsBatch = []) (h6 : D.rhsBatch = []) : D = DotDims.transposedRhs M K N := by
  cases D
  simp only at h1 h2 h3 h4 h5 h6
  subst h1 h2 h3 h4 h5 h6
  rfl

theorem t_lhs0 (j : (⟨2, ![M, N]⟩ : Shape).Idx) (q : (DotDims.transposedRhs M K N).contr.Idx) :
    ((DotDims.transposedRhs M K N).lhsIdx j q 0).val = (j 0).val := rfl
theorem t_lhs1 (j : (⟨2, ![M, N]⟩ : Shape).Idx) (q : (DotDims.transposedRhs M K N).contr.Idx) :
    ((DotDims.transposedRhs M K N).lhsIdx j q 1).val = (q ⟨0, Nat.one_pos⟩).val := rfl
theorem t_rhs0 (j : (⟨2, ![M, N]⟩ : Shape).Idx) (q : (DotDims.transposedRhs M K N).contr.Idx) :
    ((DotDims.transposedRhs M K N).rhsIdx j q 0).val = (j 1).val := rfl
theorem t_rhs1 (j : (⟨2, ![M, N]⟩ : Shape).Idx) (q : (DotDims.transposedRhs M K N).contr.Idx) :
    ((DotDims.transposedRhs M K N).rhsIdx j q 1).val = (q ⟨0, Nat.one_pos⟩).val := rfl

/-- The sum over the contraction index of that record, re-indexed by the contracted coordinate. -/
theorem t_sum {φ₁ φ₂ : FTy} (a : FVec Ideal ⟨2, ![M, K]⟩ φ₁) (b : FVec Ideal ⟨2, ![N, K]⟩ φ₂) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k :=
    funext fun a => Fin.ext (by
      match a with
      | ⟨0, _⟩ => exact t_lhs0 _ _
      | ⟨1, _⟩ => exact (t_lhs1 _ _).trans hk)
  have er : (DotDims.transposedRhs M K N).rhsIdx (ix2 p q) ((contrEquiv1 (DotDims.transposedRhs M K N) K rfl rfl).symm k)
      = ix2 q k :=
    funext fun a => Fin.ext (by
      match a with
      | ⟨0, _⟩ => exact t_rhs0 _ _
      | ⟨1, _⟩ => exact (t_rhs1 _ _).trans hk)
  rw [el, er]

/-- A kernel's product contracted on both last axes, into the zero word, read at `(p, q)`. -/
theorem transposed_matmul_zero_apply {φ₁ φ₂ : FTy} (prec : Option ContractPrecision) (a : FVec Ideal ⟨2, ![M, K]⟩ φ₁)
    (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) := by
  rw [Ideal.matmul_constant_zero_apply]
  exact t_sum a b p q

/-- The host's `dot_general` contracted on both last axes, read at `(p, q)`. -/
theorem transposed_dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) := by
  rw [Ideal.dotGeneral_apply]
  exact t_sum a b p q

end Cert.Lib.RowsByRows

end
-- ==== Proof.KernelBlocks.lean ====
/-
  What one grid step of the kernel computes, read at an element, at the extended reals. A step takes 512 rows `x`
  of the input, the whole weight matrices `W`, `u`, `v`, the bias row `b` and the column `w`, and writes

    * the logits       `P(p, q) = ∑ₖ x(p, k) · W(q, k) + b(0, q)`                                  (512 × 1000),
    * their row sums   `∑_c P(p, c)`                                                              (512 × 1),
    * the scores       `∑ⱼ tanh(∑_c P(p, c) · u(j, c)) · logistic(∑_c P(p, c) · v(j, c)) · w(j, 0)`   (512 × 1).

  The changes of float format in between are the identity on extended reals, and each product accumulates into zero.
-/
import proofs.«153898_j33097017983355_1_alg».proof.Proof.Gen.KernelIdeal.Skeleton
import proofs.«153898_j33097017983355_1_alg».proof.Proof.LibRowwise
import proofs.«153898_j33097017983355_1_alg».proof.Proof.LibRowsByRows

noncomputable section

namespace Cert.KernelIdeal.Blocks

open Idealize.ShloMosaic Idealize.ShloMosaic.ValueIdx Cert.KernelIdeal Cert.KernelIdeal.Gen Cert.Lib.Rowwise Cert.Lib.RowsByRows

/-- The logits' product and the two gate products contract both operands' last axes; the score product is plain. -/
theorem logitsDot : dot_S512x2048_S1000x2048_S512x1000_1_1_0_0_n_n = DotDims.transposedRhs 512 2048 1000 :=
  eq_transposedRhs _ rfl rfl rfl rfl rfl rfl
theorem gateDot : dot_S512x1000_S256x1000_S512x256_1_1_0_0_n_n = DotDims.transposedRhs 512 1000 256 :=
  eq_transposedRhs _ rfl rfl rfl rfl rfl rfl
theorem scoreDot : dot_S512x256_S256x1_S512x1_1_0_0_1_n_n = DotDims.plain 512 256 1 :=
  eq_plain _ rfl rfl rfl rfl rfl rfl

/-- The bias row spread over the 512 rows reads, at `(p, q)`, the row at `(0, q)`. -/
theorem biasRow_apply (b : Vec Ideal S1x1000 .f32) (h : S1x1000.Broadcasts S512x1000) (p : Fin 512) (q : Fin 1000) :
    broadcastTo S512x1000 b h (ix2 p q) = b (ix2 0 q) := by
  refine broadcastTo_apply b h (ix2 p q) (ix2 0 q) fun a => ?_
  match a with
  | ⟨0, _⟩ => exact (if_pos rfl).symm
  | ⟨1, _⟩ => exact (if_neg (show ¬ (1000 : Nat) = 1 by decide)).symm

/-- The logits of a step at `(p, q)`. -/
theorem logits_apply (x : Vec Ideal S512x2048 .f32) (W : Vec Ideal S1000x2048 .bf16) (b : Vec Ideal S1x1000 .f32)
    (p : Fin 512) (q : Fin 1000) :
    k0_pay1 (F := Ideal) x W b (ix2 p q) = (∑ k : Fin 2048, x (ix2 p k) * W (ix2 q k)) + b (ix2 0 q) := by
  unfold k0_pay1
  rw [logitsDot, addf_apply]
  simp only [shapeCast_self, matmul]
  rw [biasRow_apply, transposed_matmul_zero_apply]
  rfl

/-- The row sums of a step at row `p`. -/
theorem rowSums_apply (x : Vec Ideal S512x2048 .f32) (W : Vec Ideal S1000x2048 .bf16) (b : Vec Ideal S1x1000 .f32)
    (p : Fin 512) (z : Fin 1) :
    k0_pay2 (F := Ideal) x W b (ix2 p z) = ∑ c : Fin 1000, k0_pay1 (F := Ideal) x W b (ix2 p c) := by
  unfold k0_pay2
  rw [column_apply]
  exact laneSum_apply (k0_pay1 (F := Ideal) x W b) 0x00000000#32 reduces_S512x1000_S512 (.inl rfl) rfl p

/-- The scores of a step at row `p`. -/
theorem scores_apply (x : Vec Ideal S512x2048 .f32) (W : Vec Ideal S1000x2048 .bf16) (b : Vec Ideal S1x1000 .f32)
    (u v : Vec Ideal S256x1000 .bf16) (w : Vec Ideal S256x1 .bf16) (p : Fin 512) (z : Fin 1) :
    k0_pay3 (F := Ideal) x W b u v w (ix2 p z)
      = ∑ j : Fin 256, (Ideal.tanh (∑ c : Fin 1000, k0_pay1 (F := Ideal) x W b (ix2 p c) * u (ix2 j c))
          * Ideal.logistic (∑ c : Fin 1000, k0_pay1 (F := Ideal) x W b (ix2 p c) * v (ix2 j c))) * w (ix2 j z) := by
  unfold k0_pay3
  rw [scoreDot, gateDot]
  simp only [shapeCast_self, matmul]
  rw [plain_matmul_zero_apply]
  refine Finset.sum_congr rfl fun j _ => ?_
  show (Ideal.tanh (FloatOps.matmul (DotDims.transposedRhs 512 1000 256) none (truncf .bf16 (k0_pay1 (F := Ideal) x W b) bitsLt_bf16_f32) u
            (constant S512x256 .f32 0x00000000#32) (ix2 p j))
        * Ideal.logistic (FloatOps.matmul (DotDims.transposedRhs 512 1000 256) none (truncf .bf16 (k0_pay1 (F := Ideal) x W b) bitsLt_bf16_f32) v
            (constant S512x256 .f32 0x00000000#32) (ix2 p j))) * w (ix2 j z) = _
  rw [transposed_matmul_zero_apply, transposed_matmul_zero_apply]
  rfl

end Cert.KernelIdeal.Blocks

end
-- ==== Proof.LibSoftmax.lean ====
/-
  The host's softmax of a vector of any length `n`, as jax prints it — the maximum `μ` of the entries (a fold of `max`
  from `-∞`, joined once more with `-∞`), the exponentials `e^(sⱼ - μ)`, their sum, the quotients — read at the
  extended reals: when every entry of the vector is a real number and the vector is not empty, every weight is a
  real number. (`μ` is then a real, every exponential a positive real, their sum a positive real, hence not zero.)

  With it, the elementary facts about extended reals that ARE reals (`IsReal`): products, sums, finite sums,
  `tanh` and the logistic function of anything.
-/
import Idealize.ShloMosaic.PureOps.Ideal.Laws
import Idealize.ShloMosaic.Lib.ValueIdx
import Idealize.ShloMosaic.Lib.Pipeline.Value

noncomputable section

namespace Cert.Lib.Softmax

open Idealize.ShloMosaic Idealize.ShloMosaic.ValueIdx

/-! ## Extended reals that are reals -/

/-- The extended real `x` is a real number. -/
def IsReal (x : EReal) : Prop := ∃ r : ℝ, x = (r : EReal)

theorem IsReal.of_ne {x : EReal} (h1 : x ≠ ⊥) (h2 : x ≠ ⊤) : IsReal x := ⟨x.toReal, (EReal.coe_toReal h2 h1).symm⟩

theorem IsReal.coe (r : ℝ) : IsReal (r : EReal) := ⟨r, rfl⟩

theorem IsReal.lt_top {x : EReal} (h : IsReal x) : x < ⊤ := by obtain ⟨r, rfl⟩ := h; exact EReal.coe_lt_top r
theorem IsReal.bot_lt {x : EReal} (h : IsReal x) : ⊥ < x := by obtain ⟨r, rfl⟩ := h; exact EReal.bot_lt_coe r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, EReal.coe_zero.symm⟩

/-- A finite sum of coerced reals is the coerced sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  exact ⟨∑ k ∈ s, g k, by rw [← coe_sum]; exact Finset.sum_congr rfl fun k _ => hg k⟩

/-- `tanh` of any extended real is a real (`-1` and `1` at the infinities). -/
theorem IsReal.tanh (x : EReal) : IsReal (Ideal.tanh x) := by
  induction x using EReal.rec with
  | bot => exact ⟨-1, by rw [Ideal.tanh_bot]; simp⟩
  | top => exact ⟨1, by rw [Ideal.tanh_top]; simp⟩
  | coe r => exact ⟨Real.tanh r, Ideal.tanh_coe r⟩

/-- The logistic function of any extended real is a real (`0` and `1` at the infinities). -/
theorem IsReal.logistic (x : EReal) : IsReal (Ideal.logistic x) := by
  induction x using EReal.rec with
  | bot => exact ⟨0, by rw [Ideal.logistic_bot]; simp⟩
  | top => exact ⟨1, by rw [Ideal.logistic_top]; simp⟩
  | coe r => exact ⟨_, Ideal.logistic_coe r⟩

/-! ## The printed softmax -/

/-- The shapes of a length-`n` vector, of a scalar and of a length-one vector. -/
abbrev vec (n : Nat) : Shape := ⟨1, ![n]⟩
abbrev scalar : Shape := ⟨0, ![]⟩
abbrev one : Shape := ⟨1, ![1]⟩

variable {n : Nat}

/-- The entries' maximum as the host computes it: a maximum-reduce from `-∞`, joined with `-∞`. -/
def peak (hr : (vec n).ReducesTo [0] scalar) (hu : 0 < scalar.numel) (s : FVec Ideal (vec n) .f32) : FVec Ideal scalar .f32 :=
  maximumf (constant scalar .f32 0xFF800000#32) (Host.reduce FloatOps.maximumf s (constant scalar .f32 0xFF800000#32) hr hu)

/-- A scalar spread over the vector, through a length-one vector, as jax prints a keepdims broadcast. -/
def spread (hb0 : scalar.BroadcastsInDim one (![] : Fin 0 → Fin one.rank))
    (hb1 : one.BroadcastsInDim (vec n) (![0] : Fin 1 → Fin (vec n).rank)) (z : FVec Ideal scalar .f32) : FVec Ideal (vec n) .f32 :=
  broadcastInDim (vec n) ![0] hb1 (broadcastInDim one ![] hb0 z)

/-- The exponentials of the entries less their maximum. -/
def expShift (hr : (vec n).ReducesTo [0] scalar) (hu : 0 < scalar.numel)
    (hb0 : scalar.BroadcastsInDim one (![] : Fin 0 → Fin one.rank))
    (hb1 : one.BroadcastsInDim (vec n) (![0] : Fin 1 → Fin (vec n).rank)) (s : FVec Ideal (vec n) .f32) : FVec Ideal (vec n) .f32 :=
  Host.exp (subf s (spread hb0 hb1 (peak hr hu s)))

/-- The softmax weights: each exponential over the sum of all. -/
def weights (hr : (vec n).ReducesTo [0] scalar) (hu : 0 < scalar.numel)
    (hb0 : scalar.BroadcastsInDim one (![] : Fin 0 → Fin one.rank))
    (hb1 : one.BroadcastsInDim (vec n) (![0] : Fin 1 → Fin (vec n).rank)) (s : FVec Ideal (vec n) .f32) : FVec Ideal (vec n) .f32 :=
  Host.divf (expShift hr hu hb0 hb1 s)
    (spread hb0 hb1 (Host.reduceAdd (expShift hr hu hb0 hb1 s) (constant scalar .f32 0x00000000#32) hr hu))

/-- A spread scalar reads the scalar everywhere. -/
theorem spread_apply (hb0 : scalar.BroadcastsInDim one (![] : Fin 0 → Fin one.rank))
    (hb1 : one.BroadcastsInDim (vec n) (![0] : Fin 1 → Fin (vec n).rank)) (z : FVec Ideal scalar .f32) (j : (vec n).Idx) :
    spread hb0 hb1 z j = z ix0 := by
  unfold spread
  rw [broadcastInDim_apply _ hb1 _ j (ix1 0) (fun a => match a with
      | ⟨0, _⟩ => by show 0 = if (1 : Nat) = 1 then 0 else (j 0).val; rw [if_pos rfl]),
    broadcastInDim_apply _ hb0 _ (ix1 0) ix0 (fun a => a.elim0)]

theorem negInf : Ideal.ofBits .f32 0xFF800000#32 = ⊥ := by simp [Ideal.ofBits, Ideal.ieee]

/-- Over a non-empty vector of reals the maximum is a real: the reduce is the fold of `max` from `-∞` over the
    indices that drop to the one scalar index, which are all of them. -/
theorem peak_real (hr : (vec n).ReducesTo [0] scalar) (hu : 0 < scalar.numel) (hn : 0 < n)
    (s : FVec Ideal (vec n) .f32) (hs : ∀ j, IsReal (s j)) : IsReal (peak hr hu s ix0) := by
  unfold peak
  rw [maximumf_apply, Host.reduce_eq_fold (FloatOps.maximumf (F := Ideal) (φ := .f32)) s _ hr hu ix0]
  change IsReal (max (Ideal.ofBits .f32 0xFF800000#32) (Finset.fold max (Ideal.ofBits .f32 0xFF800000#32) s _))
  rw [negInf]
  refine IsReal.of_ne (ne_of_gt ?_) (ne_of_lt ?_)
  · refine lt_max_of_lt_right ?_
    exact (Finset.lt_fold_max _).mpr (Or.inr ⟨ix1 ⟨0, hn⟩,
      Finset.mem_filter.mpr ⟨Finset.mem_univ _, funext fun a => a.elim0⟩, (hs _).bot_lt⟩)
  · refine max_lt bot_lt_top ?_
    exact (Finset.fold_max_lt _).mpr ⟨bot_lt_top, fun k _ => (hs _).lt_top⟩

/-- THE WEIGHTS ARE REALS: over a non-empty vector of reals every softmax weight is a real number. -/
theorem weights_real (hr : (vec n).ReducesTo [0] scalar) (hu : 0 < scalar.numel)
    (hb0 : scalar.BroadcastsInDim one (![] : Fin 0 → Fin one.rank))
    (hb1 : one.BroadcastsInDim (vec n) (![0] : Fin 1 → Fin (vec n).rank)) (hn : 0 < n)
    (s : FVec Ideal (vec n) .f32) (hs : ∀ j, IsReal (s j)) (i : (vec n).Idx) : IsReal (weights hr hu hb0 hb1 s i) := by
  obtain ⟨μ, hμ⟩ := peak_real hr hu hn s hs
  choose r hr_ using hs
  have he : ∀ j, expShift hr hu hb0 hb1 s j = ((Real.exp (r j - μ) : ℝ) : EReal) := by
    intro j
    show Ideal.exp (s j - spread hb0 hb1 (peak hr hu s) j) = _
    rw [spread_apply, hμ, hr_ j, ← EReal.coe_sub, Ideal.exp_coe]
  have hsum : Host.reduceAdd (expShift hr hu hb0 hb1 s) (constant scalar .f32 0x00000000#32) hr hu ix0
      = ((∑ j : (vec n).Idx, Real.exp (r j - μ) : ℝ) : EReal) := by
    simp only [Host.reduceAdd, Ideal.hostReduceAdd_def]
    rw [Ideal.hostReduceAdd_total hr (fun b => b.elim0) _ _ ix0]
    show Ideal.ofBits .f32 0x00000000#32 + _ = _
    rw [Ideal.ofBits_zero_f32, zero_add, ← coe_sum]
    exact Finset.sum_congr rfl fun j _ => he j
  have hpos : (0 : ℝ) < ∑ j : (vec n).Idx, Real.exp (r j - μ) :=
    Finset.sum_pos (fun j _ => Real.exp_pos _) ⟨ix1 ⟨0, hn⟩, Finset.mem_univ _⟩
  show IsReal (Ideal.div (expShift hr hu hb0 hb1 s i) (spread hb0 hb1 _ i))
  rw [spread_apply, hsum, he i, Ideal.div_coe (ne_of_gt hpos), ← EReal.coe_mul]
  exact IsReal.coe _

/-! ## Pooling rows by weights -/

section Pooling

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A real weight times a sum of reals is the sum of the products: the distributive law, which on the extended
    reals holds when the factor and the terms are finite. -/
theorem real_mul_sum {ι : Type*} (s : Finset ι) (a : EReal) (f : ι → EReal) (ha : IsReal a) (hf : ∀ k, IsReal (f k)) :
    a * ∑ k ∈ s, f k = ∑ k ∈ s, f k * a := by
  obtain ⟨r, rfl⟩ := ha
  choose g hg using hf
  have e1 : ∑ k ∈ s, f k = ((∑ k ∈ s, g k : ℝ) : EReal) := by
    rw [← coe_sum]; exact Finset.sum_congr rfl fun k _ => hg k
  have e2 : ∑ k ∈ s, f k * (r : EReal) = ((∑ k ∈ s, g k * r : ℝ) : EReal) := by
    rw [← coe_sum]; exact Finset.sum_congr rfl fun k _ => by rw [hg k, EReal.coe_mul]
  rw [e1, e2, ← EReal.coe_mul, Finset.mul_sum]
  exact congrArg _ (Finset.sum_congr rfl fun k _ => mul_comm _ _)

/-- WEIGHTED ROW SUMS ARE THE WEIGHTED TOTAL: for real weights `a` on the rows of a real matrix `P`,
    `∑ⱼ aⱼ · (∑_c P(j, c)) = ∑_(j, c) P(j, c) · aⱼ`. -/
theorem pooled_eq {A B : Nat} (a : (⟨1, ![A]⟩ : Shape).Idx → EReal) (P : (⟨2, ![A, B]⟩ : Shape).Idx → EReal)
    (ha : ∀ j, IsReal (a j)) (hP : ∀ i, IsReal (P i)) :
    (∑ j : (⟨1, ![A]⟩ : Shape).Idx, a j * ∑ c : Fin B, P (ix2 (j 0) c))
      = ∑ i : (⟨2, ![A, B]⟩ : Shape).Idx, P i * a (ix1 (i 0)) := by
  rw [sum_idx1, sum_idx2]
  refine Finset.sum_congr rfl fun p _ => ?_
  exact real_mul_sum Finset.univ (a (ix1 p)) (fun c => P (ix2 p c)) (ha _) (fun c => hP _)

end Pooling

end Cert.Lib.Softmax

end
-- ==== Proof.Spec.lean ====
/-
  The mathematics of gated-attention pooling over 8192 instances, as functions of the argument arrays, index by index,
  on the extended reals:

    * logits     `P(r, q) = ∑ₖ x(r, k) · W(q, k) + b(q)`                                            (8192 × 1000),
    * row sums   `R(r) = ∑_c P(r, c)`                                                               (8192 × 1),
    * scores     `S(r) = ∑ⱼ tanh(∑_c P(r, c) · u(j, c)) · logistic(∑_c P(r, c) · v(j, c)) · w(j, 0)`   (8192 × 1).

  Both programs return the logits and the pooled total `∑ᵣ softmax(S)(r) · R(r)`. When `x`, `W`, `b` are finite the
  logits are reals; when `w` is finite the scores are reals whatever the gates' arguments are, since `tanh` and the
  logistic function take every extended real to a real.
-/
import proofs.«153898_j33097017983355_1_alg».proof.Proof.LibSoftmax

noncomputable section

namespace Cert.Spec

open Idealize.ShloMosaic Idealize.ShloMosaic.ValueIdx Cert.Lib.Softmax

/-- The logits. The bias is given by its column coordinate. -/
def logits (x : (⟨2, ![8192, 2048]⟩ : Shape).Idx → EReal) (W : (⟨2, ![1000, 2048]⟩ : Shape).Idx → EReal)
    (b : Fin 1000 → EReal) : (⟨2, ![8192, 1000]⟩ : Shape).Idx → EReal :=
  fun i => (∑ k : Fin 2048, x (ix2 (i 0) k) * W (ix2 (i 1) k)) + b (i 1)

/-- The logits' row sums, as a column. -/
def rowSums (P : (⟨2, ![8192, 1000]⟩ : Shape).Idx → EReal) : (⟨2, ![8192, 1]⟩ : Shape).Idx → EReal :=
  fun i => ∑ c : Fin 1000, P (ix2 (i 0) c)

/-- The attention scores, as a column. -/
def scores (P : (⟨2, ![8192, 1000]⟩ : Shape).Idx → EReal) (u v : (⟨2, ![256, 1000]⟩ : Shape).Idx → EReal)
    (w : (⟨2, ![256, 1]⟩ : Shape).Idx → EReal) : (⟨2, ![8192, 1]⟩ : Shape).Idx → EReal :=
  fun i => ∑ j : Fin 256, (Ideal.tanh (∑ c : Fin 1000, P (ix2 (i 0) c) * u (ix2 j c))
    * Ideal.logistic (∑ c : Fin 1000, P (ix2 (i 0) c) * v (ix2 j c))) * w (ix2 j (i 1))

/-- Finite inputs give real logits. -/
theorem logits_real (x : (⟨2, ![8192, 2048]⟩ : Shape).Idx → EReal) (W : (⟨2, ![1000, 2048]⟩ : Shape).Idx → EReal)
    (b : Fin 1000 → EReal) (hx : ∀ i, IsReal (x i)) (hW : ∀ i, IsReal (W i)) (hb : ∀ q, IsReal (b q))
    (i : (⟨2, ![8192, 1000]⟩ : Shape).Idx) : IsReal (logits x W b i) :=
  IsReal.add (IsReal.sum _ _ fun k => IsReal.mul (hx _) (hW _)) (hb _)

/-- A finite column `w` gives real scores. -/
theorem scores_real (P : (⟨2, ![8192, 1000]⟩ : Shape).Idx → EReal) (u v : (⟨2, ![256, 1000]⟩ : Shape).Idx → EReal)
    (w : (⟨2, ![256, 1]⟩ : Shape).Idx → EReal) (hw : ∀ i, IsReal (w i)) (i : (⟨2, ![8192, 1]⟩ : Shape).Idx) :
    IsReal (scores P u v w i) :=
  IsReal.sum _ _ fun j => IsReal.mul (IsReal.mul (IsReal.tanh _) (IsReal.logistic _)) (hw _)

end Cert.Spec

end
-- ==== Proof.KernelArrays.lean ====
/-
  From grid steps to whole arrays. The grid has 16 steps; step `t` reads rows `512·t … 512·t + 511` of `x` and the whole
  of the other operands, and writes rows `512·t … 512·t + 511` of the three result arrays. So after the run the three
  arrays hold, at every index, the logits, the scores and the row sums of `Cert.Spec` of the arrays as the kernel finds
  them: a step's block at `(p, q)` is the whole-array function at `(512·t + p, q)`, and the 16 blocks cover the rows.
-/
import proofs.«153898_j33097017983355_1_alg».proof.Proof.Gen.KernelIdeal.Frame
import proofs.«153898_j33097017983355_1_alg».proof.Proof.KernelBlocks
import proofs.«153898_j33097017983355_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks

variable (m : (ℓ : Loc nD τ sig) → Buf (Elt Ideal) ℓ)

theorem hz : (![0, 0] : Fin 2 → Nat) = fun _ => 0 := funext fun a => by fin_cases a <;> rfl

/-! ## The arrays the kernel finds, and a step's blocks of them -/

abbrev xArr (c : Dev nD) : Vec Ideal S8192x2048 .f32 := V m c main_arg0
abbrev wArr (c : Dev nD) : Vec Ideal S1000x2048 .bf16 := V m c main_v0
abbrev bArr (c : Dev nD) : Vec Ideal S1x1000 .f32 := V m c main_v4
abbrev uArr (c : Dev nD) : Vec Ideal S256x1000 .bf16 := V m c main_v1
abbrev vArr (c : Dev nD) : Vec Ideal S256x1000 .bf16 := V m c main_v2
abbrev cArr (c : Dev nD) : Vec Ideal S256x1 .bf16 := V m c main_v3

abbrev xBlk (c : Dev nD) (t : Fin cfg0.N) : Vec Ideal S512x2048 .f32 := iblk m c 0 t
abbrev wBlk (c : Dev nD) (t : Fin cfg0.N) : Vec Ideal S1000x2048 .bf16 := iblk m c 1 t
abbrev bBlk (c : Dev nD) (t : Fin cfg0.N) : Vec Ideal S1x1000 .f32 := iblk m c 2 t
abbrev uBlk (c : Dev nD) (t : Fin cfg0.N) : Vec Ideal S256x1000 .bf16 := iblk m c 3 t
abbrev vBlk (c : Dev nD) (t : Fin cfg0.N) : Vec Ideal S256x1000 .bf16 := iblk m c 4 t
abbrev cBlk (c : Dev nD) (t : Fin cfg0.N) : Vec Ideal S256x1 .bf16 := iblk m c 5 t

/-- The block indices, decided over the 16 steps: the row operand and the three results move with the step, every
    other operand stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Step `t`'s block of `x` at `(p, k)` is `x` at row `512·t + p`. -/
theorem xBlk_apply (c : Dev nD) (t : Fin cfg0.N) (p : Fin 512) (k : Fin 2048) (r : Fin 8192) (hr : r.val = t.val * 512 + p.val) :
    xBlk m c t (ix2 p k) = xArr m c (ix2 r k) := by
  obtain ⟨e0, e1, -⟩ := idx_facts t
  unfold xBlk iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 2048 + 1 * k.val = k.val; rw [e1]; omega

/-- The other operands' blocks are the whole arrays. -/
theorem wBlk_eq (c : Dev nD) (t : Fin cfg0.N) : wBlk m c t = wArr m c := by
  obtain ⟨-, -, e0, e1, -⟩ := idx_facts t
  funext i
  unfold wBlk iblk
  rw [View.read_apply]
  show V m c main_v0 _ = V m c main_v0 _
  congr 1
  funext a
  apply Fin.ext
  match a with
  | ⟨0, _⟩ => show win0_1.index t 0 * 1000 + 1 * (i 0).val = (i 0).val; rw [e0]; omega
  | ⟨1, _⟩ => show win0_1.index t 1 * 2048 + 1 * (i 1).val = (i 1).val; rw [e1]; omega
theorem bBlk_eq (c : Dev nD) (t : Fin cfg0.N) : bBlk m c t = bArr m c := by
  obtain ⟨-, -, -, -, e0, e1, -⟩ := idx_facts t
  funext i
  unfold bBlk iblk
  rw [View.read_apply]
  show V m c main_v4 _ = V m c main_v4 _
  congr 1
  funext a
  apply Fin.ext
  match a with
  | ⟨0, _⟩ => show win0_2.index t 0 * 1 + 1 * (i 0).val = (i 0).val; rw [e0]; omega
  | ⟨1, _⟩ => show win0_2.index t 1 * 1000 + 1 * (i 1).val = (i 1).val; rw [e1]; omega
theorem uBlk_eq (c : Dev nD) (t : Fin cfg0.N) : uBlk m c t = uArr m c := by
  obtain ⟨-, -, -, -, -, -, e0, e1, -⟩ := idx_facts t
  funext i
  unfold uBlk iblk
  rw [View.read_apply]
  show V m c main_v1 _ = V m c main_v1 _
  congr 1
  funext a
  apply Fin.ext
  match a with
  | ⟨0, _⟩ => show win0_3.index t 0 * 256 + 1 * (i 0).val = (i 0).val; rw [e0]; omega
  | ⟨1, _⟩ => show win0_3.index t 1 * 1000 + 1 * (i 1).val = (i 1).val; rw [e1]; omega
theorem vBlk_eq (c : Dev nD) (t : Fin cfg0.N) : vBlk m c t = vArr m c := by
  obtain ⟨-, -, -, -, -, -, -, -, e0, e1, -⟩ := idx_facts t
  funext i
  unfold vBlk iblk
  rw [View.read_apply]
  show V m c main_v2 _ = V m c main_v2 _
  congr 1
  funext a
  apply Fin.ext
  match a with
  | ⟨0, _⟩ => show win0_4.index t 0 * 256 + 1 * (i 0).val = (i 0).val; rw [e0]; omega
  | ⟨1, _⟩ => show win0_4.index t 1 * 1000 + 1 * (i 1).val = (i 1).val; rw [e1]; omega
theorem cBlk_eq (c : Dev nD) (t : Fin cfg0.N) : cBlk m c t = cArr m c := by
  obtain ⟨-, -, -, -, -, -, -, -, -, -, e0, e1, -⟩ := idx_facts t
  funext i
  unfold cBlk iblk
  rw [View.read_apply]
  show V m c main_v3 _ = V m c main_v3 _
  congr 1
  funext a
  apply Fin.ext
  match a with
  | ⟨0, _⟩ => show win0_5.index t 0 * 256 + 1 * (i 0).val = (i 0).val; rw [e0]; omega
  | ⟨1, _⟩ => show win0_5.index t 1 * 1 + 1 * (i 1).val = (i 1).val; rw [e1]; omega

/-! ## The three whole-array functions of what the kernel finds -/

/-- The logits of the arrays as found (the bias read off its one row). -/
abbrev P (c : Dev nD) : Vec Ideal S8192x1000 .f32 :=
  Cert.Spec.logits (xArr m c) (wArr m c) (fun q => bArr m c (ix2 0 q))
/-- The scores of the arrays as found. -/
abbrev Sc (c : Dev nD) : Vec Ideal S8192x1 .f32 := Cert.Spec.scores (P m c) (uArr m c) (vArr m c) (cArr m c)
/-- The logits' row sums. -/
abbrev Rs (c : Dev nD) : Vec Ideal S8192x1 .f32 := Cert.Spec.rowSums (P m c)

/-- A step's logits at `(p, q)` are the logits at row `512·t + p`. -/
theorem logits_blk (c : Dev nD) (t : Fin cfg0.N) (p : Fin 512) (q : Fin 1000) (r : Fin 8192) (hr : r.val = t.val * 512 + p.val) :
    k0_pay1 (F := Ideal) (xBlk m c t) (wBlk m c t) (bBlk m c t) (ix2 p q) = P m c (ix2 r q) := by
  refine (logits_apply (xBlk m c t) (wBlk m c t) (bBlk m c t) p q).trans ?_
  show _ = (∑ k : Fin 2048, xArr m c (ix2 r k) * wArr m c (ix2 q k)) + bArr m c (ix2 0 q)
  rw [wBlk_eq, bBlk_eq]
  exact congrArg (· + bArr m c (ix2 0 q)) (Finset.sum_congr rfl fun k _ => by rw [xBlk_apply m c t p k r hr])

/-- A step's row sums at row `p` are the row sums at row `512·t + p`. -/
theorem rowSums_blk (c : Dev nD) (t : Fin cfg0.N) (p : Fin 512) (z : Fin 1) (r : Fin 8192) (hr : r.val = t.val * 512 + p.val) :
    k0_pay2 (F := Ideal) (xBlk m c t) (wBlk m c t) (bBlk m c t) (ix2 p z) = Rs m c (ix2 r z) := by
  refine (rowSums_apply (xBlk m c t) (wBlk m c t) (bBlk m c t) p z).trans ?_
  show _ = ∑ q : Fin 1000, P m c (ix2 r q)
  exact Finset.sum_congr rfl fun q _ => logits_blk m c t p q r hr

/-- A step's scores at row `p` are the scores at row `512·t + p`. -/
theorem scores_blk (c : Dev nD) (t : Fin cfg0.N) (p : Fin 512) (z : Fin 1) (r : Fin 8192) (hr : r.val = t.val * 512 + p.val) :
    k0_pay3 (F := Ideal) (xBlk m c t) (wBlk m c t) (bBlk m c t) (uBlk m c t) (vBlk m c t) (cBlk m c t) (ix2 p z) = Sc m c (ix2 r z) := by
  refine (scores_apply (xBlk m c t) (wBlk m c t) (bBlk m c t) (uBlk m c t) (vBlk m c t) (cBlk m c t) p z).trans ?_
  show _ = ∑ j : Fin 256, (Ideal.tanh (∑ q : Fin 1000, P m c (ix2 r q) * uArr m c (ix2 j q))
    * Ideal.logistic (∑ q : Fin 1000, P m c (ix2 r q) * vArr m c (ix2 j q))) * cArr m c (ix2 j z)
  rw [uBlk_eq, vBlk_eq, cBlk_eq]
  refine Finset.sum_congr rfl fun j _ => ?_
  have e1 : (∑ q : Fin 1000, k0_pay1 (F := Ideal) (xBlk m c t) (wBlk m c t) (bBlk m c t) (ix2 p q) * uArr m c (ix2 j q))
      = ∑ q : Fin 1000, P m c (ix2 r q) * uArr m c (ix2 j q) :=
    Finset.sum_congr rfl fun q _ => by rw [logits_blk m c t p q r hr]
  have e2 : (∑ q : Fin 1000, k0_pay1 (F := Ideal) (xBlk m c t) (wBlk m c t) (bBlk m c t) (ix2 p q) * vArr m c (ix2 j q))
      = ∑ q : Fin 1000, P m c (ix2 r q) * vArr m c (ix2 j q) :=
    Finset.sum_congr rfl fun q _ => by rw [logits_blk m c t p q r hr]
  rw [e1, e2]

/-! ## What each step writes back, and the cover -/

/-- The row of the array that step `t`'s block row `p` is. -/
def row (t : Fin cfg0.N) (p : Fin 512) : Fin 8192 := ⟨t.val * 512 + p.val, by
  have h1 : t.val < 16 := lt_of_lt_of_eq t.isLt (show cfg0.N = 16 from N_0)
  have h2 := p.isLt
  omega⟩

/-- Step `t` writes back block `t` of the logits. -/
theorem flushed6_eq (c : Dev nD) (t : Fin cfg0.N) :
    (dats m 0 c).flushed 6 t = ((cfg0.win 6).blk t).view.read (Elt Ideal) (P m c) := by
  obtain ⟨-, -, -, -, -, -, -, -, -, -, -, -, e0, e1, -⟩ := idx_facts t
  show (cfg0.win 6).cut (grid0.coords t) ((dats m 0 c).after 6 t) = _
  rw [after0_6]
  unfold out0_6
  rw [View.canon_unit_zero hz]
  simp only [View.ld_unit_zero (S := S512x2048) hz, View.ld_unit_zero (S := S1000x2048) hz, View.ld_unit_zero (S := S1x1000) hz]
  funext j
  obtain ⟨p, q, rfl⟩ : ∃ (p : Fin 512) (q : Fin 1000), j = ix2 p q := ⟨j 0, j 1, eq_ix2 j⟩
  rw [View.read_apply]
  refine (logits_blk m c t p q (row t p) rfl).trans ?_
  show P m c (ix2 (row t p) q) = P m c _
  congr 1
  funext a
  apply Fin.ext
  match a with
  | ⟨0, _⟩ => show t.val * 512 + p.val = win0_6.index t 0 * 512 + 1 * p.val; rw [e0]; omega
  | ⟨1, _⟩ => show q.val = win0_6.index t 1 * 1000 + 1 * q.val; rw [e1]; omega

/-- Step `t` writes back block `t` of the scores. -/
theorem flushed7_eq (c : Dev nD) (t : Fin cfg0.N) :
    (dats m 0 c).flushed 7 t = ((cfg0.win 7).blk t).view.read (Elt Ideal) (Sc m c) := by
  obtain ⟨-, -, -, -, -, -, -, -, -, -, -, -, -, -, e0, e1, -⟩ := idx_facts t
  show (cfg0.win 7).cut (grid0.coords t) ((dats m 0 c).after 7 t) = _
  rw [after0_7]
  unfold out0_7
  rw [View.canon_unit_zero hz]
  simp only [View.ld_unit_zero (S := S512x2048) hz, View.ld_unit_zero (S := S1000x2048) hz, View.ld_unit_zero (S := S1x1000) hz,
    View.ld_unit_zero (S := S256x1000) hz, View.ld_unit_zero (S := S256x1) hz]
  funext j
  obtain ⟨p, z, rfl⟩ : ∃ (p : Fin 512) (z : Fin 1), j = ix2 p z := ⟨j 0, j 1, eq_ix2 j⟩
  rw [View.read_apply]
  refine (scores_blk m c t p z (row t p) rfl).trans ?_
  show Sc m c (ix2 (row t p) z) = Sc m c _
  congr 1
  funext a
  apply Fin.ext
  match a with
  | ⟨0, _⟩ => show t.val * 512 + p.val = win0_7.index t 0 * 512 + 1 * p.val; rw [e0]; omega
  | ⟨1, _⟩ => show z.val = win0_7.index t 1 * 1 + 1 * z.val; rw [e1]; omega

/-- Step `t` writes back block `t` of the row sums. -/
theorem flushed8_eq (c : Dev nD) (t : Fin cfg0.N) :
    (dats m 0 c).flushed 8 t = ((cfg0.win 8).blk t).view.read (Elt Ideal) (Rs m c) := by
  obtain ⟨-, -, -, -, -, -, -, -, -, -, -, -, -, -, -, -, e0, e1⟩ := idx_facts t
  show (cfg0.win 8).cut (grid0.coords t) ((dats m 0 c).after 8 t) = _
  rw [after0_8]
  unfold out0_8
  rw [View.canon_unit_zero hz]
  simp only [View.ld_unit_zero (S := S512x2048) hz, View.ld_unit_zero (S := S1000x2048) hz, View.ld_unit_zero (S := S1x1000) hz]
  funext j
  obtain ⟨p, z, rfl⟩ : ∃ (p : Fin 512) (z : Fin 1), j = ix2 p z := ⟨j 0, j 1, eq_ix2 j⟩
  rw [View.read_apply]
  refine (rowSums_blk m c t p z (row t p) rfl).trans ?_
  show Rs m c (ix2 (row t p) z) = Rs m c _
  congr 1
  funext a
  apply Fin.ext
  match a with
  | ⟨0, _⟩ => show t.val * 512 + p.val = win0_8.index t 0 * 512 + 1 * p.val; rw [e0]; omega
  | ⟨1, _⟩ => show z.val = win0_8.index t 1 * 1 + 1 * z.val; rw [e1]; omega

/-- The step whose block holds row `r`. -/
def stepOf (r : Nat) (hr : r < 8192) : Fin cfg0.N := ⟨r / 512, by rw [show cfg0.N = 16 from N_0]; omega⟩

/-- Every index of the logits is in some step's block. -/
theorem cover6 (i : S8192x1000.Idx) : ∃ t : Fin cfg0.N, (cfg0.win 6).flush t = true ∧ i ∈ ((cfg0.win 6).blk t).view.set := by
  have h0 : (i 0).val < 8192 := (i 0).isLt
  have h1 : (i 1).val < 1000 := (i 1).isLt
  refine ⟨stepOf (i 0).val h0, flush0_6 _, ?_⟩
  obtain ⟨-, -, -, -, -, -, -, -, -, -, -, -, e0, e1, -⟩ := idx_facts (stepOf (i 0).val h0)
  show i ∈ ((View.whole main_v5_0).slice (win0_6.rect (stepOf (i 0).val h0))).set
  rw [View.set_slice_whole, Rect.mem_set_unit]
  intro a
  match a with
  | ⟨0, _⟩ =>
    show win0_6.index (stepOf (i 0).val h0) 0 * 512 ≤ (i 0).val ∧ (i 0).val < win0_6.index (stepOf (i 0).val h0) 0 * 512 + 512
    rw [e0]; show (i 0).val / 512 * 512 ≤ (i 0).val ∧ (i 0).val < (i 0).val / 512 * 512 + 512; omega
  | ⟨1, _⟩ =>
    show win0_6.index (stepOf (i 0).val h0) 1 * 1000 ≤ (i 1).val ∧ (i 1).val < win0_6.index (stepOf (i 0).val h0) 1 * 1000 + 1000
    rw [e1]; omega

theorem cover7 (i : S8192x1.Idx) : ∃ t : Fin cfg0.N, (cfg0.win 7).flush t = true ∧ i ∈ ((cfg0.win 7).blk t).view.set := by
  have h0 : (i 0).val < 8192 := (i 0).isLt
  have h1 : (i 1).val < 1 := (i 1).isLt
  refine ⟨stepOf (i 0).val h0, flush0_7 _, ?_⟩
  obtain ⟨-, -, -, -, -, -, -, -, -, -, -, -, -, -, e0, e1, -⟩ := idx_facts (stepOf (i 0).val h0)
  show i ∈ ((View.whole main_v5_1).slice (win0_7.rect (stepOf (i 0).val h0))).set
  rw [View.set_slice_whole, Rect.mem_set_unit]
  intro a
  match a with
  | ⟨0, _⟩ =>
    show win0_7.index (stepOf (i 0).val h0) 0 * 512 ≤ (i 0).val ∧ (i 0).val < win0_7.index (stepOf (i 0).val h0) 0 * 512 + 512
    rw [e0]; show (i 0).val / 512 * 512 ≤ (i 0).val ∧ (i 0).val < (i 0).val / 512 * 512 + 512; omega
  | ⟨1, _⟩ =>
    show win0_7.index (stepOf (i 0).val h0) 1 * 1 ≤ (i 1).val ∧ (i 1).val < win0_7.index (stepOf (i 0).val h0) 1 * 1 + 1
    rw [e1]; omega

theorem cover8 (i : S8192x1.Idx) : ∃ t : Fin cfg0.N, (cfg0.win 8).flush t = true ∧ i ∈ ((cfg0.win 8).blk t).view.set := by
  have h0 : (i 0).val < 8192 := (i 0).isLt
  have h1 : (i 1).val < 1 := (i 1).isLt
  refine ⟨stepOf (i 0).val h0, flush0_8 _, ?_⟩
  obtain ⟨-, -, -, -, -, -, -, -, -, -, -, -, -, -, -, -, e0, e1⟩ := idx_facts (stepOf (i 0).val h0)
  show i ∈ ((View.whole main_v5_2).slice (win0_8.rect (stepOf (i 0).val h0))).set
  rw [View.set_slice_whole, Rect.mem_set_unit]
  intro a
  match a with
  | ⟨0, _⟩ =>
    show win0_8.index (stepOf (i 0).val h0) 0 * 512 ≤ (i 0).val ∧ (i 0).val < win0_8.index (stepOf (i 0).val h0) 0 * 512 + 512
    rw [e0]; show (i 0).val / 512 * 512 ≤ (i 0).val ∧ (i 0).val < (i 0).val / 512 * 512 + 512; omega
  | ⟨1, _⟩ =>
    show win0_8.index (stepOf (i 0).val h0) 1 * 1 ≤ (i 1).val ∧ (i 1).val < win0_8.index (stepOf (i 0).val h0) 1 * 1 + 1
    rw [e1]; omega

/-! ## The three arrays after the run -/

theorem final6 (c : Dev nD) : (dats m 0 c).arrAt 6 cfg0.N = P m c :=
  (dats m 0 c).arrAt_eq_of_cover 6 (P m c) (fun t _ => flushed6_eq m c t) cover6
theorem final7 (c : Dev nD) : (dats m 0 c).arrAt 7 cfg0.N = Sc m c :=
  (dats m 0 c).arrAt_eq_of_cover 7 (Sc m c) (fun t _ => flushed7_eq m c t) cover7
theorem final8 (c : Dev nD) : (dats m 0 c).arrAt 8 cfg0.N = Rs m c :=
  (dats m 0 c).arrAt_eq_of_cover 8 (Rs m c) (fun t _ => flushed8_eq m c t) cover8

end Cert.KernelIdeal.Arrays

end
-- ==== Proof.Pooled.lean ====
/-
  The end of both programs. From the score column `S` both take the softmax weights `a = softmax(S)` over the 8192
  instances. The kernel's host lines then return `∑ⱼ aⱼ · R(j)` with `R` the logits' row sums; the reference returns
  `∑_(j, c) P(j, c) · aⱼ`. For real logits and real scores these are one number: `aⱼ` is then a real, and a real
  factor distributes over a sum of reals.
-/
import proofs.«153898_j33097017983355_1_alg».proof.Proof.Spec

noncomputable section

namespace Cert.Spec

open Idealize.ShloMosaic Idealize.ShloMosaic.ValueIdx Cert.Lib.Softmax

abbrev col : Shape := ⟨2, ![8192, 1]⟩
abbrev mat : Shape := ⟨2, ![8192, 1000]⟩

/-- A column `[8192, 1]` flattened to a vector reads, at `j`, the column at `(j, 0)`. -/
theorem flat_apply {α : Type} (S : col.Idx → α) (hc : col.ShapeCasts (vec 8192)) (j : (vec 8192).Idx) :
    shapeCast (vec 8192) S hc j = S (ix2 (j 0) 0) := by
  refine shapeCast_apply S hc j (ix2 (j 0) 0) ?_
  rw [Shape.rowMajor_val_two, Shape.rowMajor_val_one]
  show (j 0).val * 1 + 0 = (j 0).val
  omega

/-- The attention weights of a score column: the host's softmax of the flattened column. -/
def attention (hc : col.ShapeCasts (vec 8192)) (hr : (vec 8192).ReducesTo [0] scalar) (hu : 0 < scalar.numel)
    (hb0 : scalar.BroadcastsInDim one (![] : Fin 0 → Fin one.rank))
    (hb1 : one.BroadcastsInDim (vec 8192) (![0] : Fin 1 → Fin (vec 8192).rank)) (S : col.Idx → EReal) : (vec 8192).Idx → EReal :=
  weights hr hu hb0 hb1 (shapeCast (vec 8192) S hc)

/-- The pooled total: every logit times its row's weight, summed. -/
def pooled (a : (vec 8192).Idx → EReal) (P : mat.Idx → EReal) : EReal := ∑ i : mat.Idx, P i * a (ix1 (i 0))

/-- Real scores have real attention weights. -/
theorem attention_real (hc : col.ShapeCasts (vec 8192)) (hr : (vec 8192).ReducesTo [0] scalar) (hu : 0 < scalar.numel)
    (hb0 : scalar.BroadcastsInDim one (![] : Fin 0 → Fin one.rank))
    (hb1 : one.BroadcastsInDim (vec 8192) (![0] : Fin 1 → Fin (vec 8192).rank)) (S : col.Idx → EReal)
    (hS : ∀ i, IsReal (S i)) (j : (vec 8192).Idx) : IsReal (attention hc hr hu hb0 hb1 S j) :=
  weights_real hr hu hb0 hb1 (by decide) _ (fun j => by rw [flat_apply]; exact hS _) j

/-- THE KERNEL'S LAST LINES: the weights times the flattened row sums, summed from zero, is the pooled total. -/
theorem kernel_total (hc : col.ShapeCasts (vec 8192)) (hr : (vec 8192).ReducesTo [0] scalar) (hu : 0 < scalar.numel)
    (hb0 : scalar.BroadcastsInDim one (![] : Fin 0 → Fin one.rank))
    (hb1 : one.BroadcastsInDim (vec 8192) (![0] : Fin 1 → Fin (vec 8192).rank))
    (P : mat.Idx → EReal) (S : col.Idx → EReal) (hP : ∀ i, IsReal (P i)) (hS : ∀ i, IsReal (S i)) :
    Host.reduceAdd (F := Ideal) (φ := .f32) (mulf (weights hr hu hb0 hb1 (shapeCast (vec 8192) S hc)) (shapeCast (vec 8192) (rowSums P) hc))
        (constant scalar .f32 0x00000000#32) hr hu
      = fun _ => pooled (attention hc hr hu hb0 hb1 S) P := by
  funext z
  simp only [Host.reduceAdd, Ideal.hostReduceAdd_def]
  rw [Ideal.hostReduceAdd_total hr (fun b => b.elim0) _ _ z]
  show Ideal.ofBits .f32 0x00000000#32 + _ = _
  rw [Ideal.ofBits_zero_f32, zero_add]
  unfold pooled
  rw [← pooled_eq (attention hc hr hu hb0 hb1 S) P (attention_real hc hr hu hb0 hb1 S hS) hP]
  refine Finset.sum_congr rfl fun j _ => ?_
  show weights hr hu hb0 hb1 (shapeCast (vec 8192) S hc) j * shapeCast (vec 8192) (rowSums P) hc j = _
  rw [flat_apply]
  rfl

/-- THE REFERENCE'S LAST LINES: the logits times the weights spread along the rows, summed from zero over both axes. -/
theorem reference_total (hr2 : mat.ReducesTo [0, 1] scalar) (hu : 0 < scalar.numel)
    (hbA : (vec 8192).BroadcastsInDim col (![0] : Fin 1 → Fin col.rank))
    (hbB : col.BroadcastsInDim mat (![0, 1] : Fin 2 → Fin mat.rank))
    (a : (vec 8192).Idx → EReal) (P : mat.Idx → EReal) :
    Host.reduceAdd (F := Ideal) (φ := .f32) (mulf P (broadcastInDim mat ![0, 1] hbB (broadcastInDim col ![0] hbA a)))
        (constant scalar .f32 0x00000000#32) hr2 hu
      = fun _ => pooled a P := by
  funext z
  simp only [Host.reduceAdd, Ideal.hostReduceAdd_def]
  rw [Ideal.hostReduceAdd_total hr2 (fun b => b.elim0) _ _ z]
  show Ideal.ofBits .f32 0x00000000#32 + _ = _
  rw [Ideal.ofBits_zero_f32, zero_add]
  unfold pooled
  refine Finset.sum_congr rfl fun i _ => ?_
  show P i * broadcastInDim mat ![0, 1] hbB (broadcastInDim col ![0] hbA a) i = _
  rw [broadcastInDim_apply _ hbB _ i (ix2 (i 0) 0) (fun b => match b with
      | ⟨0, _⟩ => by show (i 0).val = if (8192 : Nat) = 1 then 0 else (i 0).val; rw [if_neg (by decide)]
      | ⟨1, _⟩ => by show 0 = if (1 : Nat) = 1 then 0 else (i 1).val; rw [if_pos rfl]),
    broadcastInDim_apply _ hbA _ (ix2 (i 0) 0) (ix1 (i 0)) (fun b => match b with
      | ⟨0, _⟩ => by show (i 0).val = if (8192 : Nat) = 1 then 0 else (i 0).val; rw [if_neg (by decide)])]

end Cert.Spec

end
-- ==== Proof.KernelValue.lean ====
/-
  The kernel's run, read. The host lines before the kernel only change float formats (the identity on extended reals)
  and lay the bias out as one row, so the arrays the kernel finds are the arguments. The kernel leaves the logits, the
  scores and the row sums (`Cert.KernelIdeal.Arrays`). The host lines after it flatten the two columns, take the softmax
  of the scores and sum its products with the row sums: for finite arguments that is the pooled total of `Cert.Spec`.
-/
import proofs.«153898_j33097017983355_1_alg».proof.Proof.KernelArrays
import proofs.«153898_j33097017983355_1_alg».proof.Proof.Pooled
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Arrays Cert.Lib.Softmax

variable (m : (ℓ : Loc nD τ sig) → Buf (Elt Ideal) ℓ) (ρ : Dev nD → PrngReg)

/-! ## The arrays the kernel finds are the arguments -/

abbrev a0 (c : Dev nD) : Vec Ideal S8192x2048 .f32 := m ((c : Thread nD τ).loc main_arg0)
abbrev a1 (c : Dev nD) : Vec Ideal S1000x2048 .f32 := m ((c : Thread nD τ).loc main_arg1)
abbrev a2 (c : Dev nD) : Vec Ideal S1000 .f32 := m ((c : Thread nD τ).loc main_arg2)
abbrev a3 (c : Dev nD) : Vec Ideal S256x1000 .f32 := m ((c : Thread nD τ).loc main_arg3)
abbrev a4 (c : Dev nD) : Vec Ideal S256x1000 .f32 := m ((c : Thread nD τ).loc main_arg4)
abbrev a5 (c : Dev nD) : Vec Ideal S256x1 .f32 := m ((c : Thread nD τ).loc main_arg5)

theorem xArr_eq (c : Dev nD) : xArr m c = a0 m c := V_main_arg0 m c

theorem wArr_eq (c : Dev nD) : (wArr m c : S1000x2048.Idx → EReal) = a1 m c := by
  show StableHlo.after hostOps0 (fun b => m (c, b)) (Proc.devRef .tc main_v0) = _
  after_results
  rfl
theorem uArr_eq (c : Dev nD) : (uArr m c : S256x1000.Idx → EReal) = a3 m c := by
  show StableHlo.after hostOps0 (fun b => m (c, b)) (Proc.devRef .tc main_v1) = _
  after_results
  rfl
theorem vArr_eq (c : Dev nD) : (vArr m c : S256x1000.Idx → EReal) = a4 m c := by
  show StableHlo.after hostOps0 (fun b => m (c, b)) (Proc.devRef .tc main_v2) = _
  after_results
  rfl
theorem cArr_eq (c : Dev nD) : (cArr m c : S256x1.Idx → EReal) = a5 m c := by
  show StableHlo.after hostOps0 (fun b => m (c, b)) (Proc.devRef .tc main_v3) = _
  after_results
  rfl
theorem bArr_eq (c : Dev nD) : (fun q : Fin 1000 => bArr m c (ix2 0 q)) = fun q => a2 m c (ix1 q) := by
  have e : (bArr m c : S1x1000.Idx → EReal) = shapeCast S1x1000 (a2 m c) shapeCasts_S1000_S1x1000 := by
    show StableHlo.after hostOps0 (fun b => m (c, b)) (Proc.devRef .tc main_v4) = _
    after_results
    rfl
  funext q
  rw [e]
  refine shapeCast_apply _ _ (ix2 0 q) (ix1 q) ?_
  rw [Shape.rowMajor_val_one, Shape.rowMajor_val_two]
  show q.val = 0 * 1000 + q.val
  omega

/-- The logits and scores of the arguments. -/
abbrev L (c : Dev nD) : S8192x1000.Idx → EReal := Cert.Spec.logits (a0 m c) (a1 m c) (fun q => a2 m c (ix1 q))
abbrev S (c : Dev nD) : S8192x1.Idx → EReal := Cert.Spec.scores (L m c) (a3 m c) (a4 m c) (a5 m c)

theorem P_eq (c : Dev nD) : (P m c : S8192x1000.Idx → EReal) = L m c := by
  show Cert.Spec.logits (xArr m c) (wArr m c) (fun q => bArr m c (ix2 0 q)) = _
  rw [xArr_eq, wArr_eq, bArr_eq]
theorem Sc_eq (c : Dev nD) : (Sc m c : S8192x1.Idx → EReal) = S m c := by
  show Cert.Spec.scores (P m c) (uArr m c) (vArr m c) (cArr m c) = _
  rw [P_eq, uArr_eq, vArr_eq, cArr_eq]
theorem Rs_eq (c : Dev nD) : (Rs m c : S8192x1.Idx → EReal) = Cert.Spec.rowSums (L m c) := by
  show Cert.Spec.rowSums (P m c) = _
  rw [P_eq]

/-! ## The host lines after the kernel -/

/-- The pooled total of the arguments. -/
abbrev total (c : Dev nD) : EReal :=
  Cert.Spec.pooled (Cert.Spec.attention shapeCasts_S8192x1_S8192 reducesTo_S8192_S_d0 h_S_ bcast_S_S1 bcast_S1_S8192_0 (S m c)) (L m c)

/-- What the last host line leaves, in terms of the kernel's three arrays. -/
theorem tail_eq (c : Dev nD) :
    Pipeline.afterTail₀ cfgs (dats m) 0 (V0 m) [hostOps1] c main_v19
      = Host.reduceAdd (F := Ideal) (φ := .f32)
          (mulf (weights reducesTo_S8192_S_d0 h_S_ bcast_S_S1 bcast_S1_S8192_0 (shapeCast S8192 (Sc m c) shapeCasts_S8192x1_S8192))
            (shapeCast S8192 (Rs m c) shapeCasts_S8192x1_S8192))
          (constant S_ .f32 0x00000000#32) reducesTo_S8192_S_d0 h_S_ := by
  unfold Pipeline.afterTail₀
  show StableHlo.after hostOps1 _ (Proc.devRef .tc main_v19) = _
  after_results
  rw [Pipeline.withArrays_arr spec0 launch0.win.arr_inj c _ _ 7, Pipeline.withArrays_arr spec0 launch0.win.arr_inj c _ _ 8,
    final7, final8]
  rfl

/-- For finite arguments it is the pooled total. -/
theorem tail_total (c : Dev nD) (h0 : ∀ i, IsReal (a0 m c i)) (h1 : ∀ i, IsReal (a1 m c i)) (h2 : ∀ i, IsReal (a2 m c i))
    (h5 : ∀ i, IsReal (a5 m c i)) :
    Pipeline.afterTail₀ cfgs (dats m) 0 (V0 m) [hostOps1] c main_v19 = fun _ => total m c := by
  rw [tail_eq, Sc_eq, Rs_eq]
  exact Cert.Spec.kernel_total shapeCasts_S8192x1_S8192 reducesTo_S8192_S_d0 h_S_ bcast_S_S1 bcast_S1_S8192_0 (L m c) (S m c)
    (Cert.Spec.logits_real _ _ _ h0 h1 (fun q => h2 _)) (Cert.Spec.scores_real _ _ _ _ h5)

/-! ## The run -/

/-- Every weakly fair execution from a memory with finite arguments ends with the first result at the logits, the
    second at the pooled total, and the arguments unchanged. -/
theorem run (hfin : ∀ c : Dev nD, (∀ i, IsReal (a0 m c i)) ∧ (∀ i, IsReal (a1 m c i)) ∧ (∀ i, IsReal (a2 m c i))
      ∧ (∀ i, IsReal (a3 m c i)) ∧ (∀ i, IsReal (a4 m c i)) ∧ (∀ i, IsReal (a5 m c i))) :
    θ_run defs (onTc (τ := τ) (main (F := Ideal))) ⟨m, fun _ => 0, ρ⟩ fun r => ∀ c : Dev nD,
      r.2.mem ((c.tc : Thread nD τ).loc main_v5_0) = L m c
      ∧ r.2.mem ((c.tc : Thread nD τ).loc main_v19) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 6).trans ((final6 m c).trans (P_eq m c)),
      ((h c).2 main_v19 (Pipeline.mem_restRefs_of main_v19 (by decide) (by decide))).trans
        (tail_total m c (hfin c).1 (hfin c).2.1 (hfin c).2.2.1 (hfin c).2.2.2.2.2),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Hand

end
-- ==== Proof.RefValue.lean ====
/-
  The reference, read. Its first result is the logits of `Cert.Spec` of its arguments; its score column — the gated
  product times `w` — is the scores of `Cert.Spec`, the logistic function written out as `1 / (1 + e^(-y))`; and its
  second result is the pooled total of those logits under the attention weights of those scores.
-/
import proofs.«153898_j33097017983355_1_alg».proof.Proof.Gen.ReferenceIdeal.Read
import proofs.«153898_j33097017983355_1_alg».proof.Proof.Pooled

noncomputable section

namespace Cert.ReferenceIdeal.Hand

open Idealize.ShloMosaic Idealize.ShloMosaic.ValueIdx
open Cert.ReferenceIdeal Cert.ReferenceIdeal.Gen Cert.ReferenceIdeal.Read Cert.Lib.Softmax

variable (x0 : (⟨S8192x2048, .f32⟩ : BufTy).Contents (Elt Ideal)) (x1 : (⟨S1000x2048, .f32⟩ : BufTy).Contents (Elt Ideal))
  (x2 : (⟨S1000, .f32⟩ : BufTy).Contents (Elt Ideal)) (x3 x4 : (⟨S256x1000, .f32⟩ : BufTy).Contents (Elt Ideal))
  (x5 : (⟨S256x1, .f32⟩ : BufTy).Contents (Elt Ideal))

/-- The reference's logits are the specification's. -/
theorem logits_eq : val_main_v3 (F := Ideal) x0 x1 x2 = Cert.Spec.logits x0 x1 (fun q => x2 (ix1 q)) := by
  funext i
  obtain ⟨r, q, rfl⟩ : ∃ (r : Fin 8192) (q : Fin 1000), i = ix2 r q := ⟨i 0, i 1, eq_ix2 i⟩
  rw [val_main_v3_apply, val_main_v0_apply, val_main_v2_apply, val_main_v1_apply]
  have el : ∀ k : Fin 2048, lidx_main_v0 (ix2 r q) k = ix2 r k := fun k =>
    funext fun a => Fin.ext (by match a with | ⟨0, _⟩ => rfl | ⟨1, _⟩ => rfl)
  have er : ∀ k : Fin 2048, ridx_main_v0 (ix2 r q) k = ix2 q k := fun k =>
    funext fun a => Fin.ext (by match a with | ⟨0, _⟩ => rfl | ⟨1, _⟩ => rfl)
  have eb : idx_main_v1 (idx_main_v2 (ix2 r q)) = ix1 q :=
    funext fun a => Fin.ext (by match a with | ⟨0, _⟩ => rfl)
  simp only [el, er, eb]
  rfl

/-- The 32-bit word of `1.0` is the extended real `1`. -/
theorem one_word : Ideal.ofBits .f32 0x3F800000#32 = 1 := IdealRules.sign_bit.ideal_onePat .f32

/-- The reference's score column is the specification's, of the reference's logits. -/
theorem scores_eq : val_main_v14 (F := Ideal) x0 x1 x2 x3 x4 x5
    = Cert.Spec.scores (val_main_v3 (F := Ideal) x0 x1 x2) x3 x4 x5 := by
  funext i
  obtain ⟨r, z, rfl⟩ : ∃ (r : Fin 8192) (z : Fin 1), i = ix2 r z := ⟨i 0, i 1, eq_ix2 i⟩
  rw [val_main_v14_apply]
  refine Finset.sum_congr rfl fun j _ => ?_
  have el : lidx_main_v14 (ix2 r z) j = ix2 r j :=
    funext fun a => Fin.ext (by match a with | ⟨0, _⟩ => rfl | ⟨1, _⟩ => rfl)
  have er : ridx_main_v14 (ix2 r z) j = ix2 j z :=
    funext fun a => Fin.ext (by match a with | ⟨0, _⟩ => rfl | ⟨1, _⟩ => rfl)
  have el4 : ∀ k : Fin 1000, lidx_main_v4 (ix2 r j) k = ix2 r k := fun k =>
    funext fun a => Fin.ext (by match a with | ⟨0, _⟩ => rfl | ⟨1, _⟩ => rfl)
  have er4 : ∀ k : Fin 1000, ridx_main_v4 (ix2 r j) k = ix2 j k := fun k =>
    funext fun a => Fin.ext (by match a with | ⟨0, _⟩ => rfl | ⟨1, _⟩ => rfl)
  have el6 : ∀ k : Fin 1000, lidx_main_v6 (ix2 r j) k = ix2 r k := fun k =>
    funext fun a => Fin.ext (by match a with | ⟨0, _⟩ => rfl | ⟨1, _⟩ => rfl)
  have er6 : ∀ k : Fin 1000, ridx_main_v6 (ix2 r j) k = ix2 j k := fun k =>
    funext fun a => Fin.ext (by match a with | ⟨0, _⟩ => rfl | ⟨1, _⟩ => rfl)
  rw [el, er, val_main_v13_apply, val_main_v5_apply, val_main_v12_apply, val_main_v11_apply, val_main_v10_apply,
    val_main_v9_apply, val_main_v8_apply, val_main_v7_apply, val_main_v4_apply, val_main_v6_apply]
  simp only [el4, er4, el6, er6]
  show (Ideal.tanh _ * Ideal.div (Ideal.ofBits .f32 0x3F800000#32) (Ideal.ofBits .f32 0x3F800000#32 + Ideal.exp (-_))) * _ = _
  rw [one_word]
  rfl

/-- The reference's attention weights are the softmax of its flattened score column. -/
theorem weights_eq : val_main_v25 (F := Ideal) x0 x1 x2 x3 x4 x5
    = Cert.Spec.attention shapeCasts_S8192x1_S8192 reducesTo_S8192_S_d0 h_S_ bcast_S_S1 bcast_S1_S8192_0
        (val_main_v14 (F := Ideal) x0 x1 x2 x3 x4 x5) := rfl

/-- THE REFERENCE'S SECOND RESULT: the pooled total of the specification's logits under the attention weights of the
    specification's scores. -/
theorem total_eq : val_main_v29 (F := Ideal) x0 x1 x2 x3 x4 x5
    = fun _ => Cert.Spec.pooled
        (Cert.Spec.attention shapeCasts_S8192x1_S8192 reducesTo_S8192_S_d0 h_S_ bcast_S_S1 bcast_S1_S8192_0
          (Cert.Spec.scores (Cert.Spec.logits x0 x1 (fun q => x2 (ix1 q))) x3 x4 x5))
        (Cert.Spec.logits x0 x1 (fun q => x2 (ix1 q))) := by
  rw [← logits_eq, ← scores_eq, ← weights_eq]
  exact Cert.Spec.reference_total reducesTo_S8192x1000_S_d0_1 h_S_ bcast_S8192_S8192x1_0 bcast_S8192x1_S8192x1000_0_1
    (val_main_v25 (F := Ideal) x0 x1 x2 x3 x4 x5) (val_main_v3 (F := Ideal) x0 x1 x2)

end Cert.ReferenceIdeal.Hand

end
-- ==== Proof.Finite.lean ====
/-
  The precondition, read. `finite_inputs` says, of each of the six arguments, that `|x| < +∞` at every entry, all
  joined by `and`. At the extended reals `|x| = max x (-x)`, which is `+∞` at both infinities: so every entry of every
  argument is a real number.
-/
import proofs.«153898_j33097017983355_1_alg».proof.Pre_finite_inputs
import proofs.«153898_j33097017983355_1_alg».proof.Proof.Gen.Pre_finite_inputs
import proofs.«153898_j33097017983355_1_alg».proof.Proof.LibSoftmax
import Idealize.ShloMosaic.Lib.ReduceAll
import Idealize.ShloMosaic.Lib.ValueIdx

noncomputable section

namespace Cert.Pre_finite_inputs.Hand

open Idealize.ShloMosaic Idealize.ShloMosaic.ValueIdx Cert.Pre_finite_inputs Cert.Lib.Softmax

instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Under `finite_inputs` every entry of every argument is a real. -/
theorem args_real (a0 : FVec Ideal S8192x2048 .f32) (a1 : FVec Ideal S1000x2048 .f32) (a2 : FVec Ideal S1000 .f32)
    (a3 a4 : FVec Ideal S256x1000 .f32) (a5 : FVec Ideal S256x1 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ix0
  unfold fn fn_part1 at h0
  dsimp only at h0
  simp only [andi, IntOp.andi_eq_one] at h0
  obtain ⟨⟨⟨⟨⟨e0, e1⟩, e2⟩, e3⟩, e4⟩, e5⟩ := h0
  exact ⟨fun i => real_of_abs_lt _ (Host.reduce_andi_all _ _ _ _ ix0 e0 i),
    fun i => real_of_abs_lt _ (Host.reduce_andi_all _ _ _ _ ix0 e1 i),
    fun i => real_of_abs_lt _ (Host.reduce_andi_all _ _ _ _ ix0 e2 i),
    fun i => real_of_abs_lt _ (Host.reduce_andi_all _ _ _ _ ix0 e3 i),
    fun i => real_of_abs_lt _ (Host.reduce_andi_all _ _ _ _ ix0 e4 i),
    fun i => real_of_abs_lt _ (Host.reduce_andi_all _ _ _ _ ix0 e5 i)⟩

end Cert.Pre_finite_inputs.Hand

end
-- ==== Proof.lean ====
/-
  Gated-attention pooling over 8192 instances: a kernel that computes, 512 rows at a time, the logits
  `P = x · Wᵀ + b`, their row sums `R` and the scores `S = (tanh(P · uᵀ) ⊙ logistic(P · vᵀ)) · w`, followed by host lines
  that return `P` and `∑ᵣ softmax(S)ᵣ · Rᵣ` — against a reference that returns `P` and `∑_(r, c) P(r, c) · softmax(S)ᵣ`.

  On the extended reals the two first results are one function of the arguments outright: changes of float format are
  the identity, a product accumulated into zero is the plain sum of products, and the logistic function is
  `1 / (1 + e^(-y))` by definition. The two second results differ by the distributive law
  `a · ∑_c P_c = ∑_c P_c · a`, which holds for a REAL weight `a` and real `P_c` and fails at the infinities; so the
  proof uses the precondition. Finite `x`, `W`, `b` make every logit a real; a finite `w` makes every score a real
  (`tanh` and the logistic function take any extended real to a real), whence the softmax weights are reals: their
  maximum is a real, each exponential a positive real, the sum positive.

  The kernel's and the idealized kernel's frames are the generated ones; the reference's is its generated run with the
  results dropped; the idealization rewrote nothing.
-/
import proofs.«153898_j33097017983355_1_alg».proof.Defs
import proofs.«153898_j33097017983355_1_alg».proof.Proof.Gen.Kernel
import proofs.«153898_j33097017983355_1_alg».proof.Proof.Gen.Kernel.Skeleton
import proofs.«153898_j33097017983355_1_alg».proof.Proof.Gen.Kernel.Launch
import proofs.«153898_j33097017983355_1_alg».proof.Proof.Gen.Kernel.Points
import proofs.«153898_j33097017983355_1_alg».proof.Proof.Gen.Kernel.Frame
import proofs.«153898_j33097017983355_1_alg».proof.Proof.Gen.KernelIdeal
import proofs.«153898_j33097017983355_1_alg».proof.Proof.Gen.KernelIdeal.Skeleton
import proofs.«153898_j33097017983355_1_alg».proof.Proof.Gen.KernelIdeal.Launch
import proofs.«153898_j33097017983355_1_alg».proof.Proof.Gen.KernelIdeal.Points
import proofs.«153898_j33097017983355_1_alg».proof.Proof.Gen.KernelIdeal.Frame
import proofs.«153898_j33097017983355_1_alg».proof.Proof.Gen.ReferenceIdeal
import proofs.«153898_j33097017983355_1_alg».proof.Proof.Gen.Pre_finite_inputs
import proofs.«153898_j33097017983355_1_alg».proof.Proof.Gen.ReferenceIdeal.Run
import proofs.«153898_j33097017983355_1_alg».proof.Proof.Gen.ReferenceIdeal.Read
import proofs.«153898_j33097017983355_1_alg».proof.Proof.KernelValue
import proofs.«153898_j33097017983355_1_alg».proof.Proof.RefValue
import proofs.«153898_j33097017983355_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- Both programs, from memories agreeing on finite arguments, end with the logits of the arguments and their pooled
    total: the kernel's run read through its three arrays and its host tail, the reference's through its stages. -/
theorem algebraic : Cert.algebraic_KernelIdeal_ReferenceIdeal := by
  intro m ρ m' ρ' hpre hagree
  have hfin := fun c => Cert.Pre_finite_inputs.Hand.args_real _ _ _ _ _ _ (hpre c)
  refine ⟨fun c => Cert.KernelIdeal.Hand.L m c, fun c => (fun _ => Cert.KernelIdeal.Hand.total m c),
    Cert.KernelIdeal.Hand.run m ρ hfin, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v3_eq, Cert.ReferenceIdeal.Hand.logits_eq, (hagree c).1, (hagree c).2.1,
      (hagree c).2.2.1]
  · rw [Cert.ReferenceIdeal.Read.val_main_v29_eq, Cert.ReferenceIdeal.Hand.total_eq, (hagree c).1, (hagree c).2.1,
      (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
